-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x2x256 : Shape := ⟨3, ![256, 2, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x2x256 : S_.BroadcastsInDim S256x2x256 (![] : Fin 0 → Fin S256x2x256.rank)
  reducesTo_S256x2x256_S_d0_1_2 : S256x2x256.ReducesTo [0, 1, 2] S_

variable [Facts]

def fn {F : FTy → Type} [FloatOps F] (main_arg0 : FVec F S1024x256 .f32) (main_arg1 : FVec F S256x2x256 .f32) (main_arg2 : FVec F S256x2x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x2x256 .f32 := Host.absf main_arg1
  let main_cst_0 : FVec F S_ .f32 := constant S_ .f32 0x7F800000#32
  let main_v5 : FVec F S256x2x256 .f32 := broadcastInDim S256x2x256 ![] bcast_S_S256x2x256 main_cst_0
  let main_v6 : IVec S256x2x256 1 := cmpf .olt main_v4 main_v5
  let main_c_1 : IVec S_ 1 := constantI S_ 1 1#1
  let main_v7 : IVec S_ 1 := (fun x v => Host.reduce IntOp.andi x v reducesTo_S256x2x256_S_d0_1_2 h_S_) main_v6 main_c_1
  let main_v8 : IVec S_ 1 := andi main_v3 main_v7
  let main_v9 : FVec F S256x2x256 .f32 := Host.absf main_arg2
  let main_cst_2 : FVec F S_ .f32 := constant S_ .f32 0x7F800000#32
  let main_v10 : FVec F S256x2x256 .f32 := broadcastInDim S256x2x256 ![] bcast_S_S256x2x256 main_cst_2
  let main_v11 : IVec S256x2x256 1 := cmpf .olt main_v9 main_v10
  let main_c_3 : IVec S_ 1 := constantI S_ 1 1#1
  let main_v12 : IVec S_ 1 := (fun x v => Host.reduce IntOp.andi x v reducesTo_S256x2x256_S_d0_1_2 h_S_) main_v11 main_c_3
  let main_v13 : IVec S_ 1 := andi main_v8 main_v12
  main_v13
-- ==== Kernel.lean ====
abbrev S1024x256 : Shape := ⟨2, ![1024, 256]⟩
abbrev S256x2x256 : Shape := ⟨3, ![256, 2, 256]⟩
abbrev S512x256 : Shape := ⟨2, ![512, 256]⟩
abbrev S1x256 : Shape := ⟨2, ![1, 256]⟩
abbrev S256x1x256 : Shape := ⟨3, ![256, 1, 256]⟩
abbrev S256x256 : Shape := ⟨2, ![256, 256]⟩

abbrev nBuf : Space → Nat
  | .hbm => 4
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S256x2x256, .f32⟩
  | .hbm, ⟨2, _⟩ => ⟨S256x2x256, .f32⟩
  | .hbm, ⟨3, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S256x2x256, .f32⟩
  | .local _ .vmem, ⟨3, _⟩ => ⟨S256x2x256, .f32⟩
  | .local _ .vmem, ⟨4, _⟩ => ⟨S512x256, .f32⟩
  | .local _ .vmem, ⟨5, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S256x2x256_S256x2x256_0_0_0 : ∀ a, (![0, 0, 0] : Fin 3 → Nat) a + S256x2x256.size a ≤ S256x2x256.size a
  h_S256x2x256 : 0 < S256x2x256.numel
  slices_S256x2x256_o0_0_0_S256x1x256 : S256x2x256.Slices ![0, 0, 0] S256x1x256
  shapeCasts_S256x1x256_S256x256 : S256x1x256.ShapeCasts S256x256
  broadcasts_S1x256_S512x256 : S1x256.Broadcasts S512x256
  slices_S256x2x256_o0_1_0_S256x1x256 : S256x2x256.Slices ![0, 1, 0] S256x1x256
  dot_S512x256_S256x256_S512x256_1_1_0_0_n_n_wf : DotDims.WF S512x256 S256x256 S512x256 [1] [1] [0] [0] [] []
  dot_S1x256_S256x256_S1x256_1_1_0_0_n_n_wf : DotDims.WF S1x256 S256x256 S1x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S1024x256.size a
  hwx0_0 : ∀ i : grid0.Coords, EltTy.bits .f32 = 32 ∨ (Rect.block (s := S1024x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2x256.size a ≤ S256x2x256.size a
  hwx0_1 : ∀ i : grid0.Coords, EltTy.bits .f32 = 32 ∨ (Rect.block (s := S256x2x256) S256x2x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2x256.size a ≤ S256x2x256.size a
  hwx0_2 : ∀ i : grid0.Coords, EltTy.bits .f32 = 32 ∨ (Rect.block (s := S256x2x256) S256x2x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S1024x256.size a
  hwx0_3 : ∀ i : grid0.Coords, EltTy.bits .f32 = 32 ∨ (Rect.block (s := S1024x256) S512x256.size (cc0_transform_3 i) (hinb0_3 i)).WholeWords (EltTy.packing .f32)

variable [Facts₀]

def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf
def dot_S1x256_S256x256_S1x256_1_1_0_0_n_n : DotDims S1x256 S256x256 S1x256 where
  lhsContracting := [1]
  rhsContracting := [1]
  lhsNonContracting := [0]
  rhsNonContracting := [0]
  lhsBatch := []
  rhsBatch := []
  wf := dot_S1x256_S256x256_S1x256_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256 : Shape := ⟨2, ![1024, 256]⟩
abbrev S256x2x256 : Shape := ⟨3, ![256, 2, 256]⟩
abbrev S_ : Shape := ⟨0, ![]⟩
abbrev S1024x1x1x256 : Shape := ⟨4, ![1024, 1, 1, 256]⟩
abbrev S1x256x2x256 : Shape := ⟨4, ![1, 256, 2, 256]⟩
abbrev S1024x256x2x256 : Shape := ⟨4, ![1024, 256, 2, 256]⟩
abbrev S1024x256x2 : Shape := ⟨3, ![1024, 256, 2]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x2x256, .f32⟩
  | .hbm, ⟨2, _⟩ => ⟨S256x2x256, .f32⟩
  | .hbm, ⟨3, _⟩ => ⟨S256x2x256, .f32⟩
  | .hbm, ⟨4, _⟩ => ⟨S256x2x256, .f32⟩
  | .hbm, ⟨5, _⟩ => ⟨S_, .f32⟩
  | .hbm, ⟨6, _⟩ => ⟨S256x2x256, .f32⟩
  | .hbm, ⟨7, _⟩ => ⟨S256x2x256, .f32⟩
  | .hbm, ⟨8, _⟩ => ⟨S256x2x256, .f32⟩
  | .hbm, ⟨9, _⟩ => ⟨S_, .f32⟩
  | .hbm, ⟨10, _⟩ => ⟨S256x2x256, .f32⟩
  | .hbm, ⟨11, _⟩ => ⟨S256x2x256, .f32⟩
  | .hbm, ⟨12, _⟩ => ⟨S1024x1x1x256, .f32⟩
  | .hbm, ⟨13, _⟩ => ⟨S1x256x2x256, .f32⟩
  | .hbm, ⟨14, _⟩ => ⟨S1024x256x2x256, .f32⟩
  | .hbm, ⟨15, _⟩ => ⟨S1024x256x2x256, .f32⟩
  | .hbm, ⟨16, _⟩ => ⟨S1024x256x2x256, .f32⟩
  | .hbm, ⟨17, _⟩ => ⟨S1024x256x2x256, .f32⟩
  | .hbm, ⟨18, _⟩ => ⟨S1x256x2x256, .f32⟩
  | .hbm, ⟨19, _⟩ => ⟨S1024x256x2x256, .f32⟩
  | .hbm, ⟨20, _⟩ => ⟨S1024x256x2x256, .f32⟩
  | .hbm, ⟨21, _⟩ => ⟨S_, .f32⟩
  | .hbm, ⟨22, _⟩ => ⟨S1024x256x2, .f32⟩
  | .hbm, ⟨23, _⟩ => ⟨S1024x256x2, .f32⟩
  | .hbm, ⟨24, _⟩ => ⟨S1024x256x2, .f32⟩
  | .hbm, ⟨25, _⟩ => ⟨S_, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S_S256x2x256 : S_.BroadcastsInDim S256x2x256 (![] : Fin 0 → Fin S256x2x256.rank)
  bcast_S1024x256_S1024x1x1x256_0_3 : S1024x256.BroadcastsInDim S1024x1x1x256 (![0, 3] : Fin 2 → Fin S1024x1x1x256.rank)
  bcast_S256x2x256_S1x256x2x256_1_2_3 : S256x2x256.BroadcastsInDim S1x256x2x256 (![1, 2, 3] : Fin 3 → Fin S1x256x2x256.rank)
  bcast_S1024x1x1x256_S1024x256x2x256_0_1_2_3 : S1024x1x1x256.BroadcastsInDim S1024x256x2x256 (![0, 1, 2, 3] : Fin 4 → Fin S1024x256x2x256.rank)
  bcast_S1x256x2x256_S1024x256x2x256_0_1_2_3 : S1x256x2x256.BroadcastsInDim S1024x256x2x256 (![0, 1, 2, 3] : Fin 4 → Fin S1024x256x2x256.rank)
  reducesTo_S1024x256x2x256_S1024x256x2_d3 : S1024x256x2x256.ReducesTo [3] S1024x256x2
  h_S_ : 0 < S_.numel
  reducesTo_S1024x256x2_S1024x256_d2 : S1024x256x2.ReducesTo [2] S1024x256
  bcast_S_S1024x256 : S_.BroadcastsInDim S1024x256 (![] : Fin 0 → Fin S1024x256.rank)

variable [Facts₀]

class Facts : Prop extends Facts₀ where

variable [Facts]
-- ==== Proof.Consts.lean ====
/- The four float words the two programs spell, as the extended reals they denote: the additive unit, the
   multiplicative unit, the doubling factor, and the bottom element that seeds a maximum. -/
import Idealize.ShloMosaic.PureOps.Ideal

noncomputable section

namespace Cert.Density.Consts

open Idealize.ShloMosaic

/-- The word of `+0.0` denotes `0`. -/
theorem w_zero : Ideal.ofBits .f32 0x00000000#32 = 0 := by
  simp [Ideal.ofBits, Ideal.ieee]

/-- The word of `1.0` denotes `1`. -/
theorem w_one : Ideal.ofBits .f32 0x3F800000#32 = ((1 : ℝ) : EReal) := by
  simp [Ideal.ofBits, Ideal.ieee, -EReal.coe_mul]; norm_num

/-- The word of `2.0` denotes the real `2`. -/
theorem w_two : Ideal.ofBits .f32 0x40000000#32 = ((2 : ℝ) : EReal) := by
  simp [Ideal.ofBits, Ideal.ieee, -EReal.coe_mul]; norm_num

/-- The word of `-inf` denotes `⊥`. -/
theorem w_ninf : Ideal.ofBits .f32 0xFF800000#32 = ⊥ := by
  simp [Ideal.ofBits, Ideal.ieee]

/-- The word of `+inf` denotes `⊤`. -/
theorem w_pinf : Ideal.ofBits .f32 0x7F800000#32 = ⊤ := by
  simp [Ideal.ofBits, Ideal.ieee]

end Cert.Density.Consts

end
-- ==== Proof.Finite.lean ====
/- What the precondition says: each of the three inputs holds only real numbers. The printed predicate is the
   conjunction of three "all entries have absolute value below +inf"; on the extended reals an entry whose
   absolute value is below the top element is neither infinity, hence the coercion of a real. -/
import proofs.«125712_j850403524972_1_alg».proof.Pre_finite_inputs
import proofs.«125712_j850403524972_1_alg».proof.Proof.Consts
import Idealize.ShloMosaic.PureOps.Ideal
import Idealize.ShloMosaic.Lib.ReduceAll
import Idealize.ShloMosaic.Lib.ValueIdx

noncomputable section

namespace Cert.Density.Finite

open Idealize.ShloMosaic Cert.Pre_finite_inputs

variable [Cert.Pre_finite_inputs.Facts]

instance : Subsingleton S_.Idx := ⟨fun a b => funext fun d => d.elim0⟩

/-- An extended real whose absolute value is strictly below the top element is a real number. -/
theorem real_of_abs_lt_top (x : EReal) (h : Ideal.cmp .olt (max x (-x)) (Ideal.ofBits .f32 0x7F800000#32) = 1#1) :
    ∃ r : ℝ, x = (r : EReal) := by
  rw [Cert.Density.Consts.w_pinf] at h
  induction x using EReal.rec with
  | bot => simp [Ideal.cmp] at h
  | coe r => exact ⟨r, rfl⟩
  | top => simp [Ideal.cmp] at h

/-- Under the printed precondition every entry of every input is a real number. -/
theorem reals_of_pre (x : FVec Ideal S1024x256 .f32) (mu rho : FVec Ideal S256x2x256 .f32)
    (h : fn (F := Ideal) x mu rho = fun _ => 1#1) :
    (∀ i, ∃ r : ℝ, x i = (r : EReal)) ∧ (∀ i, ∃ r : ℝ, mu i = (r : EReal)) ∧ (∀ i, ∃ r : ℝ, rho i = (r : EReal)) := by
  have h' := congrFun h ValueIdx.ix0
  dsimp only [fn] at h'
  obtain ⟨h12, h3⟩ := IntOp.andi_eq_one.1 h'
  obtain ⟨h1, h2⟩ := IntOp.andi_eq_one.1 h12
  refine ⟨fun i => ?_, fun i => ?_, fun i => ?_⟩
  · exact real_of_abs_lt_top _ (Host.reduce_andi_all _ _ _ _ _ h1 i)
  · exact real_of_abs_lt_top _ (Host.reduce_andi_all _ _ _ _ _ h2 i)
  · exact real_of_abs_lt_top _ (Host.reduce_andi_all _ _ _ _ _ h3 i)

end Cert.Density.Finite

end
-- ==== Proof.Law.lean ====
/- The algebra that joins the two programs. One program sums, over the features, the squared distance of a point to a
   centre weighted by the centre's inverse doubled variance; the other expands the square before summing, as three
   separate sums. On the extended reals the expansion needs every term to be a real number (distributivity fails at the
   infinities), so the law is stated for families that are coercions of reals, and the weight is shown to be one: the
   softplus of a real is a positive real, so its doubled square has a real reciprocal. -/
import Idealize.ShloMosaic.PureOps.Ideal

noncomputable section

namespace Cert.Density.Law

open Idealize.ShloMosaic

/-- The coercion of a finite sum of reals is the sum of the coercions. -/
theorem coe_sum {ι : Type} (s : Finset ι) (g : ι → ℝ) : ((∑ f ∈ s, g f : ℝ) : EReal) = ∑ f ∈ s, (g f : EReal) := by
  classical
  refine Finset.induction_on s ?_ ?_
  · simp
  · intro a s ha ih
    rw [Finset.sum_insert ha, Finset.sum_insert ha, EReal.coe_add, ih]

/-- softplus of a real, `log (1 + e^ρ)`, read on the extended reals, is that real: the argument of the logarithm is above 1. -/
theorem softplus_coe (ρ : ℝ) : Ideal.log1p (Ideal.exp (ρ : EReal)) = ((Real.log (1 + Real.exp ρ) : ℝ) : EReal) := by
  have hpos : ¬ (1 + Real.exp ρ ≤ 0) := by have := Real.exp_pos ρ; linarith
  have e : (1 : EReal) + ((Real.exp ρ : ℝ) : EReal) = ((1 + Real.exp ρ : ℝ) : EReal) := by
    rw [EReal.coe_add, EReal.coe_one]
  rw [Ideal.exp_coe]
  unfold Ideal.log1p
  rw [e, Ideal.log_coe, if_neg hpos]

/-- and it is positive. -/
theorem softplus_pos (ρ : ℝ) : 0 < Real.log (1 + Real.exp ρ) :=
  Real.log_pos (by have := Real.exp_pos ρ; linarith)

/-- The weight `1 / ((2 σ) σ)` with `σ` the softplus of a real `ρ` is a real number. -/
theorem weight_real (one two : EReal) (h1 : one = ((1 : ℝ) : EReal)) (h2 : two = ((2 : ℝ) : EReal)) (ρ : ℝ) :
    ∃ r : ℝ, Ideal.div one ((two * Ideal.log1p (Ideal.exp (ρ : EReal))) * Ideal.log1p (Ideal.exp (ρ : EReal))) = (r : EReal) := by
  have hs := softplus_pos ρ
  rw [softplus_coe, h1, h2, ← EReal.coe_mul, ← EReal.coe_mul,
    Ideal.div_coe (mul_pos (mul_pos (by norm_num : (0 : ℝ) < 2) hs) hs).ne', ← EReal.coe_mul]
  exact ⟨_, rfl⟩

/-- THE EXPANSION. For real families `x`, `μ`, `c` over a finite index type,
    `(∑ x² c − 2 ∑ x (μ c)) + ∑ 1 (μ (μ c)) = 0 + ∑ (x − μ)² c` on the extended reals. -/
theorem sq_dist_expand {ι : Type} [Fintype ι] (x mu c : ι → EReal) (zero one two : EReal)
    (h0 : zero = 0) (h1 : one = ((1 : ℝ) : EReal)) (h2 : two = ((2 : ℝ) : EReal))
    (hx : ∀ f, ∃ r : ℝ, x f = (r : EReal)) (hmu : ∀ f, ∃ r : ℝ, mu f = (r : EReal)) (hc : ∀ f, ∃ r : ℝ, c f = (r : EReal)) :
    ((∑ f, (x f * x f) * c f) - two * (∑ f, x f * (mu f * c f))) + (∑ f, one * (mu f * (mu f * c f)))
      = zero + ∑ f, ((x f - mu f) * (x f - mu f)) * c f := by
  choose xr hxr using hx
  choose mr hmr using hmu
  choose cr hcr using hc
  simp only [hxr, hmr, hcr, h0, h1, h2, ← EReal.coe_mul, ← EReal.coe_sub, ← coe_sum, ← EReal.coe_add, zero_add]
  congr 1
  rw [Finset.mul_sum, ← Finset.sum_sub_distrib, ← Finset.sum_add_distrib]
  exact Finset.sum_congr rfl fun f _ => by ring

/-- Negation written as a difference from the additive unit. -/
theorem zero_sub_eq (zero a : EReal) (h0 : zero = 0) : zero - a = -a := by
  rw [h0, zero_sub]

end Cert.Density.Law

end
-- ==== Proof.Spec.lean ====
/- The function both programs compute. For a point's row `x` (256 features), a centre `o` and a component `d`:
   the weight `c = 1 / ((2 σ) σ)` with `σ = log (1 + e^ρ)`; the distance `∑_f (x_f − μ_f)² c_f`; the component's
   probability `e^(−distance)`; and the cell `s / ((s + 2) − 2 · max)` of the two components' sum `s` and maximum.
   The distance is written twice: summed as is, and with the square expanded into three sums; on real inputs the two
   agree (the expansion law). -/
import proofs.«125712_j850403524972_1_alg».proof.Proof.Consts
import proofs.«125712_j850403524972_1_alg».proof.Proof.Law
import Idealize.ShloMosaic.Lib.ValueIdx

noncomputable section

namespace Cert.Density

open Idealize.ShloMosaic Idealize.ShloMosaic.ValueIdx

/-- The centre tables: `[256 centres, 2 components, 256 features]`. -/
abbrev Centres := (⟨3, ![256, 2, 256]⟩ : Shape).Idx → EReal
/-- The points and the result: `[1024, 256]`. -/
abbrev Points := (⟨2, ![1024, 256]⟩ : Shape).Idx → EReal

/-- The inverse doubled variance of centre `o`, component `d`, feature `f`. -/
def weight (rho : Centres) (o : Fin 256) (d : Fin 2) (f : Fin 256) : EReal :=
  Ideal.div (Ideal.ofBits .f32 0x3F800000#32)
    ((Ideal.ofBits .f32 0x40000000#32 * Ideal.log1p (Ideal.exp (rho (ix3 o d f)))) * Ideal.log1p (Ideal.exp (rho (ix3 o d f))))

/-- The weighted squared distance of a row to centre `o`'s component `d`, summed over the features from `0`. -/
def wdist (row : Fin 256 → EReal) (mu rho : Centres) (o : Fin 256) (d : Fin 2) : EReal :=
  Ideal.ofBits .f32 0x00000000#32
    + ∑ f : Fin 256, ((row f - mu (ix3 o d f)) * (row f - mu (ix3 o d f))) * weight rho o d f

/-- The same distance with the square expanded: `(∑ x² c − 2 ∑ x (μ c)) + ∑ 1 (μ (μ c))`. -/
def wdistExpanded (row : Fin 256 → EReal) (mu rho : Centres) (o : Fin 256) (d : Fin 2) : EReal :=
  ((∑ f : Fin 256, (row f * row f) * weight rho o d f)
      - Ideal.ofBits .f32 0x40000000#32 * ∑ f : Fin 256, row f * (mu (ix3 o d f) * weight rho o d f))
    + ∑ f : Fin 256, Ideal.ofBits .f32 0x3F800000#32 * (mu (ix3 o d f) * (mu (ix3 o d f) * weight rho o d f))

/-- On real inputs the weight is real. -/
theorem weight_real (rho : Centres) (hrho : ∀ i, ∃ r : ℝ, rho i = (r : EReal)) (o : Fin 256) (d : Fin 2) (f : Fin 256) :
    ∃ r : ℝ, weight rho o d f = (r : EReal) := by
  obtain ⟨r, hr⟩ := hrho (ix3 o d f)
  unfold weight
  rw [hr]
  exact Law.weight_real _ _ Consts.w_one Consts.w_two r

/-- On real inputs the expanded distance is the distance. -/
theorem wdistExpanded_eq (row : Fin 256 → EReal) (mu rho : Centres) (hrow : ∀ f, ∃ r : ℝ, row f = (r : EReal))
    (hmu : ∀ i, ∃ r : ℝ, mu i = (r : EReal)) (hrho : ∀ i, ∃ r : ℝ, rho i = (r : EReal)) (o : Fin 256) (d : Fin 2) :
    wdistExpanded row mu rho o d = wdist row mu rho o d :=
  Law.sq_dist_expand row (fun f => mu (ix3 o d f)) (fun f => weight rho o d f) _ _ _
    Consts.w_zero Consts.w_one Consts.w_two hrow (fun f => hmu _) (fun f => weight_real rho hrho o d f)

/-- A component's probability. -/
def prob (row : Fin 256 → EReal) (mu rho : Centres) (o : Fin 256) (d : Fin 2) : EReal :=
  Ideal.exp (-(wdist row mu rho o d))

/-- The two components combined: their sum over (their sum plus two minus twice their maximum). -/
def combine (p0 p1 : EReal) : EReal :=
  Ideal.div (p0 + p1) (((p0 + p1) + Ideal.ofBits .f32 0x40000000#32) - Ideal.ofBits .f32 0x40000000#32 * max p0 p1)

/-- One cell of the result. -/
def cell (row : Fin 256 → EReal) (mu rho : Centres) (o : Fin 256) : EReal :=
  combine (prob row mu rho o 0) (prob row mu rho o 1)

/-- The whole result. -/
def density (x : Points) (mu rho : Centres) : Points :=
  fun i => cell (fun f => x (ix2 (i 0) f)) mu rho (i 1)

/-- The probability from the expanded distance, negated as a difference from zero. -/
theorem exp_zero_sub_wdistExpanded (row : Fin 256 → EReal) (mu rho : Centres) (hrow : ∀ f, ∃ r : ℝ, row f = (r : EReal))
    (hmu : ∀ i, ∃ r : ℝ, mu i = (r : EReal)) (hrho : ∀ i, ∃ r : ℝ, rho i = (r : EReal)) (o : Fin 256) (d : Fin 2) :
    Ideal.exp (Ideal.ofBits .f32 0x00000000#32 - wdistExpanded row mu rho o d) = prob row mu rho o d := by
  rw [wdistExpanded_eq row mu rho hrow hmu hrho, Law.zero_sub_eq _ _ Consts.w_zero]
  rfl

end Cert.Density

end
-- ==== Proof.RefValue.lean ====
/- The reference, stage by stage, is the specification: its weight stage is `weight`, its feature sum `wdist`, its
   exponential `prob`, its sum and its maximum over the two components the two arguments of `combine`. The maximum
   is a fold from the bottom element over a two-element axis, so it is the maximum of the two probabilities. -/
import proofs.«125712_j850403524972_1_alg».proof.Proof.Gen.ReferenceIdeal.Read
import proofs.«125712_j850403524972_1_alg».proof.Proof.Spec
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Cert.Density

/-- A fold by `max` over a two-element axis from the bottom element is the maximum of the two entries. -/
theorem fold_max_two (g : Fin 2 → EReal) (s : EReal) (hs : s = ⊥) :
    (Finset.univ : Finset (Fin 2)).fold max s g = max (g 0) (g 1) := by
  rw [hs, show (Finset.univ : Finset (Fin 2)) = {0, 1} from by decide,
    Finset.fold_insert (by decide), Finset.fold_singleton, max_bot_right]

/-- The weight stage at centre `o`, component `d`, feature `f`. -/
theorem weight_stage (rho : Centres) (o : Fin 256) (d : Fin 2) (f : Fin 256) :
    val_main_v6 (F := Ideal) rho (ix3 o d f) = weight rho o d f := by
  rw [val_main_v6_apply, val_main_v5_apply, val_main_cst_0_apply, val_main_v4_apply, val_main_v3_apply,
    val_main_v2_apply, val_main_cst_apply, val_main_v1_apply, val_main_v0_apply]
  rfl

/-- The feature sum at point `b`, centre `o`, component `d` is the distance of the point's row. -/
theorem dist_stage (x : Points) (mu rho : Centres) (b : Fin 1024) (o : Fin 256) (d : Fin 2) :
    val_main_v16 (F := Ideal) x mu rho (ix3 b o d) = wdist (fun f => x (ix2 b f)) mu rho o d := by
  rw [val_main_v16_apply]
  unfold wdist
  refine congrArg₂ (· + ·) rfl (Finset.sum_congr rfl fun f _ => ?_)
  have e1 : idx_main_v7 (idx_main_v9 (idx_main_v16 (ix3 b o d) f)) = ix2 b f :=
    funext fun a => Fin.ext (by match a with | ⟨0, _⟩ => rfl | ⟨1, _⟩ => rfl)
  have e2 : idx_main_v8 (idx_main_v10 (idx_main_v16 (ix3 b o d) f)) = ix3 o d f :=
    funext fun a => Fin.ext (by match a with | ⟨0, _⟩ => rfl | ⟨1, _⟩ => rfl | ⟨2, _⟩ => rfl)
  have e3 : idx_main_v13 (idx_main_v14 (idx_main_v16 (ix3 b o d) f)) = ix3 o d f :=
    funext fun a => Fin.ext (by match a with | ⟨0, _⟩ => rfl | ⟨1, _⟩ => rfl | ⟨2, _⟩ => rfl)
  rw [val_main_v15_apply, val_main_v12_apply, val_main_v11_apply, val_main_v9_apply, val_main_v7_apply,
    val_main_v10_apply, val_main_v8_apply, val_main_v14_apply, val_main_v13_apply, e1, e2, e3, weight_stage]
  rfl

/-- The exponential stage is the component's probability. -/
theorem prob_stage (x : Points) (mu rho : Centres) (b : Fin 1024) (o : Fin 256) (d : Fin 2) :
    val_main_v18 (F := Ideal) x mu rho (ix3 b o d) = prob (fun f => x (ix2 b f)) mu rho o d := by
  rw [val_main_v18_apply, val_main_v17_apply, dist_stage]
  rfl

/-- The sum over the two components. -/
theorem sum_stage (x : Points) (mu rho : Centres) (b : Fin 1024) (o : Fin 256) :
    val_main_v19 (F := Ideal) x mu rho (ix2 b o)
      = prob (fun f => x (ix2 b f)) mu rho o 0 + prob (fun f => x (ix2 b f)) mu rho o 1 := by
  have e0 : idx_main_v19 (ix2 b o) 0 = ix3 b o (0 : Fin 2) :=
    funext fun a => Fin.ext (by match a with | ⟨0, _⟩ => rfl | ⟨1, _⟩ => rfl | ⟨2, _⟩ => rfl)
  have e1 : idx_main_v19 (ix2 b o) 1 = ix3 b o (1 : Fin 2) :=
    funext fun a => Fin.ext (by match a with | ⟨0, _⟩ => rfl | ⟨1, _⟩ => rfl | ⟨2, _⟩ => rfl)
  rw [val_main_v19_apply, Fin.sum_univ_two, e0, e1, prob_stage, prob_stage]
  show Ideal.ofBits .f32 0x00000000#32 + _ = _
  rw [Consts.w_zero, zero_add]

/-- The maximum over the two components. -/
theorem max_stage (x : Points) (mu rho : Centres) (b : Fin 1024) (o : Fin 256) :
    val_main_v20 (F := Ideal) x mu rho (ix2 b o)
      = max (prob (fun f => x (ix2 b f)) mu rho o 0) (prob (fun f => x (ix2 b f)) mu rho o 1) := by
  unfold val_main_v20
  have hR : Shape.Reduces S1024x256x2 [2] S1024x256 := by decide
  have e0 : ∀ k : Fin 2, hR.lift (ix2 b o) k = ix3 b o k := fun k =>
    funext fun a => Fin.ext (by match a with | ⟨0, _⟩ => rfl | ⟨1, _⟩ => rfl | ⟨2, _⟩ => rfl)
  show Host.reduce (max : EReal → EReal → EReal) (val_main_v18 (F := Ideal) x mu rho) (val_main_cst_3 (F := Ideal))
    reducesTo_S1024x256x2_S1024x256_d2 h_S_ (ix2 b o) = _
  rw [Host.reduce_eq_fold_single (max : EReal → EReal → EReal) _ _ reducesTo_S1024x256x2_S1024x256_d2 hR h_S_]
  refine (fold_max_two _ _ Consts.w_ninf).trans ?_
  show max (val_main_v18 (F := Ideal) x mu rho (hR.lift (ix2 b o) (0 : Fin 2)))
    (val_main_v18 (F := Ideal) x mu rho (hR.lift (ix2 b o) (1 : Fin 2))) = _
  rw [e0, e0, prob_stage, prob_stage]

/-- The reference's result is the specification. -/
theorem result_eq (x : Points) (mu rho : Centres) : val_main_v26 (F := Ideal) x mu rho = density x mu rho := by
  funext i
  obtain ⟨b, o, rfl⟩ : ∃ (b : Fin 1024) (o : Fin 256), i = ix2 b o := ⟨i 0, i 1, eq_ix2 i⟩
  rw [val_main_v26_apply, val_main_v25_apply, val_main_v22_apply, val_main_v24_apply, val_main_v21_apply,
    val_main_v23_apply, val_main_cst_4_apply, val_main_cst_5_apply, sum_stage, max_stage]
  rfl

end Cert.ReferenceIdeal.RefValue

end
-- ==== Proof.LibContractLast.lean ====
/- A matrix product that contracts the LAST axis of both rank-2 operands (`A · Bᵀ`: dimension numbers with no batch
   axes, non-contracting axes `[0]` and `[0]`, contracting axes `[1]` and `[1]`), read at a result index from its
   coordinates: entry `(p, q)` is `∑ f, A (p, f) * B (q, f)`. Stated for any dimension record with those numbers, at the
   ideal values, into the zero accumulator. -/
import Idealize.ShloMosaic.PureOps.Ideal.Laws
import Idealize.ShloMosaic.Lib.ValueIdx

noncomputable section

namespace Idealize.ShloMosaic.ContractLast

open Idealize.ShloMosaic Idealize.ShloMosaic.ValueIdx

variable {M N K : Nat}

/-- Two positions of an index that are equal as numbers hold the same coordinate. -/
private theorem coord_congr {s : Shape} (j : s.Idx) (p q : Nat) (hp : p < s.rank) (hq : q < s.rank) (h : p = q) :
    (j ⟨p, hp⟩).val = (j ⟨q, hq⟩).val := by subst h; rfl

/-- The left operand's row coordinate is the result's row coordinate. -/
theorem lhs_row (d : DotDims (⟨2, ![M, K]⟩ : Shape) (⟨2, ![N, K]⟩ : Shape) (⟨2, ![M, N]⟩ : Shape)) (hb : d.lhsBatch = []) (hn : d.lhsNonContracting = [0])
    (j : (⟨2, ![M, N]⟩ : Shape).Idx) (k : d.contr.Idx) : (d.lhsIdx j k 0).val = (j 0).val := by
  have h0 : (0 : Fin (⟨2, ![M, K]⟩ : Shape).rank) ∉ d.lhsBatch := by rw [hb]; exact List.not_mem_nil
  have h1 : (0 : Fin (⟨2, ![M, K]⟩ : Shape).rank) ∈ d.lhsNonContracting := by rw [hn]; exact List.mem_singleton.mpr rfl
  unfold DotDims.lhsIdx
  rw [dif_neg h0, dif_pos h1]
  simp only [Fin.val_cast]
  exact coord_congr j _ _ _ _ (by simp [hb, hn])

/-- The left operand's column coordinate is the contraction position. -/
theorem lhs_col (d : DotDims (⟨2, ![M, K]⟩ : Shape) (⟨2, ![N, K]⟩ : Shape) (⟨2, ![M, N]⟩ : Shape)) (hc : d.lhsContracting = [1]) (j : (⟨2, ![M, N]⟩ : Shape).Idx) (k : d.contr.Idx) :
    (d.lhsIdx j k 1).val = (k ⟨0, by rw [d.rank_contr, hc]; exact Nat.one_pos⟩).val :=
  d.lhsIdx_val_of_single hc j k

/-- The right operand's row coordinate is the result's column coordinate. -/
theorem rhs_row (d : DotDims (⟨2, ![M, K]⟩ : Shape) (⟨2, ![N, K]⟩ : Shape) (⟨2, ![M, N]⟩ : Shape)) (hb : d.rhsBatch = []) (hb' : d.lhsBatch = []) (hn' : d.lhsNonContracting = [0])
    (hn : d.rhsNonContracting = [0]) (j : (⟨2, ![M, N]⟩ : Shape).Idx) (k : d.contr.Idx) : (d.rhsIdx j k 0).val = (j 1).val := by
  have h0 : (0 : Fin (⟨2, ![N, K]⟩ : Shape).rank) ∉ d.rhsBatch := by rw [hb]; exact List.not_mem_nil
  have h1 : (0 : Fin (⟨2, ![N, K]⟩ : Shape).rank) ∈ d.rhsNonContracting := by rw [hn]; exact List.mem_singleton.mpr rfl
  unfold DotDims.rhsIdx
  rw [dif_neg h0, dif_pos h1]
  simp only [Fin.val_cast]
  exact coord_congr j _ _ _ _ (by simp [hb', hn', hn])

/-- The right operand's column coordinate is the contraction position. -/
theorem rhs_col (d : DotDims (⟨2, ![M, K]⟩ : Shape) (⟨2, ![N, K]⟩ : Shape) (⟨2, ![M, N]⟩ : Shape)) (hc : d.rhsContracting = [1]) (j : (⟨2, ![M, N]⟩ : Shape).Idx) (k : d.contr.Idx) :
    (d.rhsIdx j k 1).val = (k ⟨0, by rw [d.rank_contr, ← d.length_contracting, hc]; exact Nat.one_pos⟩).val :=
  d.rhsIdx_val_of_single hc j k

/-- `A · Bᵀ` into the zero accumulator, at `(p, q)`: the sum over the shared last axis. -/
theorem matmul_zero_apply (d : DotDims (⟨2, ![M, K]⟩ : Shape) (⟨2, ![N, K]⟩ : Shape) (⟨2, ![M, N]⟩ : Shape)) (prec : Option ContractPrecision)
    (hlb : d.lhsBatch = []) (hrb : d.rhsBatch = []) (hln : d.lhsNonContracting = [0]) (hrn : d.rhsNonContracting = [0])
    (hlc : d.lhsContracting = [1]) (hrc : d.rhsContracting = [1])
    (A : FVec Ideal (⟨2, ![M, K]⟩ : Shape) .f32) (B : FVec Ideal (⟨2, ![N, K]⟩ : Shape) .f32) (p : Fin M) (q : Fin N) :
    matmul d prec A B (constant (⟨2, ![M, N]⟩ : Shape) .f32 0x00000000#32) (ix2 p q) = ∑ f : Fin K, A (ix2 p f) * B (ix2 q f) := by
  show FloatOps.matmul d prec A B (constant (⟨2, ![M, N]⟩ : Shape) .f32 0x00000000#32) (ix2 p q) = _
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun f _ => ?_
  have hk := contrEquiv1_symm_val d K hr hs f
  congr 1
  · refine congrArg A (funext fun a => Fin.ext ?_)
    match a with
    | ⟨0, _⟩ => exact lhs_row d hlb hln _ _
    | ⟨1, _⟩ => exact (lhs_col d hlc _ _).trans hk
  · refine congrArg B (funext fun a => Fin.ext ?_)
    match a with
    | ⟨0, _⟩ => exact rhs_row d hrb hlb hln hrn _ _
    | ⟨1, _⟩ => exact (rhs_col d hrc _ _).trans hk

end Idealize.ShloMosaic.ContractLast

end
-- ==== Proof.KernelCell.lean ====
/- The kernel body's stored value, read at one index. The body slices each centre table at a component and drops the
   unit axis (the component's rows), forms the weight table from the variance rows, and builds the distance as three
   matrix products against the point block — `x² · cᵀ`, `x · (μ c)ᵀ`, and a row of ones against `μ (μ c)` broadcast
   down the block —, so at entry `(p, o)` it holds the expanded distance of row `p` to centre `o`. On real inputs that
   is the distance, and the stored value is the specification's cell of row `p`. -/
import proofs.«125712_j850403524972_1_alg».proof.Proof.Gen.KernelIdeal.Skeleton
import proofs.«125712_j850403524972_1_alg».proof.Proof.Spec
import proofs.«125712_j850403524972_1_alg».proof.Proof.LibContractLast
import Idealize.ShloMosaic.Lib.Pipeline.Value
import Idealize.ShloMosaic.Lib.ValueIdx

noncomputable section

namespace Cert.KernelIdeal.Cell

open Cert.KernelIdeal Cert.KernelIdeal.Gen
open Idealize.ShloMosaic Idealize.ShloMosaic.ValueIdx Idealize.ShloMosaic.ContractLast Cert.Density

/-! ## The centre tables' rows, one component at a time -/

/-- Component 0's rows of a centre table: the slice at component 0 with its unit axis dropped. -/
def rows0 (v : Vec Ideal S256x2x256 .f32) : FVec Ideal S256x256 .f32 :=
  shapeCast S256x256 (extractStridedSlice S256x1x256 ![0, 0, 0] v slices_S256x2x256_o0_0_0_S256x1x256) shapeCasts_S256x1x256_S256x256

/-- Component 1's rows. -/
def rows1 (v : Vec Ideal S256x2x256 .f32) : FVec Ideal S256x256 .f32 :=
  shapeCast S256x256 (extractStridedSlice S256x1x256 ![0, 1, 0] v slices_S256x2x256_o0_1_0_S256x1x256) shapeCasts_S256x1x256_S256x256

/-- Dropping the middle unit axis of `[256, 1, 256]` keeps the outer coordinates. -/
theorem drop_mid (w : FVec Ideal S256x1x256 .f32) (o f : Fin 256) :
    shapeCast S256x256 w shapeCasts_S256x1x256_S256x256 (ix2 o f) = w (ix3 o (0 : Fin 1) f) :=
  shapeCast_apply w _ (ix2 o f) (ix3 o (0 : Fin 1) f) (by
    rw [Shape.rowMajor_val_three, Shape.rowMajor_val_two]
    show (o.val * 1 + 0) * 256 + f.val = o.val * 256 + f.val
    omega)

theorem rows0_apply (v : Vec Ideal S256x2x256 .f32) (o f : Fin 256) : rows0 v (ix2 o f) = v (ix3 o (0 : Fin 2) f) := by
  unfold rows0
  rw [drop_mid]
  refine extractStridedSlice_apply _ _ _ _ (ix3 o (0 : Fin 2) f) fun a => ?_
  match a with
  | ⟨0, _⟩ => exact (Nat.zero_add _).symm
  | ⟨1, _⟩ => rfl
  | ⟨2, _⟩ => exact (Nat.zero_add _).symm

theorem rows1_apply (v : Vec Ideal S256x2x256 .f32) (o f : Fin 256) : rows1 v (ix2 o f) = v (ix3 o (1 : Fin 2) f) := by
  unfold rows1
  rw [drop_mid]
  refine extractStridedSlice_apply _ _ _ _ (ix3 o (1 : Fin 2) f) fun a => ?_
  match a with
  | ⟨0, _⟩ => exact (Nat.zero_add _).symm
  | ⟨1, _⟩ => rfl
  | ⟨2, _⟩ => exact (Nat.zero_add _).symm

/-! ## The weight table -/

/-- The weight table of a component's variance rows: `1 / ((2 σ) σ)`, `σ` the softplus, entry by entry. -/
def wtab (rs : FVec Ideal S256x256 .f32) : FVec Ideal S256x256 .f32 :=
  divf (broadcast S256x256 (Scalar.ofBits .f32 0x3F800000#32))
    (mulf (mulf (broadcast S256x256 (Scalar.ofBits .f32 0x40000000#32)) (log1p (exp rs))) (log1p (exp rs)))

theorem wtab_apply (rs : FVec Ideal S256x256 .f32) (rho : Centres) (d : Fin 2)
    (h : ∀ o f : Fin 256, rs (ix2 o f) = rho (ix3 o d f)) (o f : Fin 256) : wtab rs (ix2 o f) = weight rho o d f := by
  show Ideal.div (Ideal.ofBits .f32 0x3F800000#32)
    ((Ideal.ofBits .f32 0x40000000#32 * Ideal.log1p (Ideal.exp (rs (ix2 o f)))) * Ideal.log1p (Ideal.exp (rs (ix2 o f)))) = _
  rw [h]
  rfl

/-! ## The distance table -/

/-- The three products and their combination, for one component's mean rows `ms` and weight table `ws`. -/
def estTab (xb : FVec Ideal S512x256 .f32) (ms ws : FVec Ideal S256x256 .f32) : FVec Ideal S512x256 .f32 :=
  addf
    (subf (matmul dot_S512x256_S256x256_S512x256_1_1_0_0_n_n (some .fp32) (mulf xb xb) ws (constant S512x256 .f32 0x00000000#32))
      (mulf (broadcast S512x256 (Scalar.ofBits .f32 0x40000000#32))
        (matmul dot_S512x256_S256x256_S512x256_1_1_0_0_n_n (some .fp32) xb (mulf ms ws) (constant S512x256 .f32 0x00000000#32))))
    (broadcastTo S512x256
      (matmul dot_S1x256_S256x256_S1x256_1_1_0_0_n_n (some .fp32) (broadcast S1x256 (Scalar.ofBits .f32 0x3F800000#32)) (mulf ms (mulf ms ws))
        (constant S1x256 .f32 0x00000000#32))
      broadcasts_S1x256_S512x256)

/-- A row `[1, 256]` broadcast down `[512, 256]` reads the row's entry of the same column. -/
theorem row_down (w : FVec Ideal S1x256 .f32) (p : Fin 512) (o : Fin 256) :
    broadcastTo S512x256 w broadcasts_S1x256_S512x256 (ix2 p o) = w (ix2 (0 : Fin 1) o) :=
  broadcastTo_apply w _ (ix2 p o) (ix2 (0 : Fin 1) o) fun a => by
    match a with
    | ⟨0, _⟩ => show (0 : ℕ) = if (1 : Nat) = 1 then 0 else _; rw [if_pos rfl]
    | ⟨1, _⟩ => show o.val = if (256 : Nat) = 1 then 0 else _; rw [if_neg (by decide)]; rfl

/-- Entry `(p, o)` of the distance table is the expanded distance of block row `p` to centre `o`. -/
theorem estTab_apply (xb : FVec Ideal S512x256 .f32) (ms ws : FVec Ideal S256x256 .f32) (mu rho : Centres) (d : Fin 2)
    (hms : ∀ o f : Fin 256, ms (ix2 o f) = mu (ix3 o d f)) (hws : ∀ o f : Fin 256, ws (ix2 o f) = weight rho o d f)
    (p : Fin 512) (o : Fin 256) :
    estTab xb ms ws (ix2 p o) = wdistExpanded (fun f => xb (ix2 p f)) mu rho o d := by
  unfold estTab
  rw [addf_apply, subf_apply, mulf_apply, broadcast_apply, row_down,
    matmul_zero_apply dot_S512x256_S256x256_S512x256_1_1_0_0_n_n _ rfl rfl rfl rfl rfl rfl,
    matmul_zero_apply dot_S512x256_S256x256_S512x256_1_1_0_0_n_n _ rfl rfl rfl rfl rfl rfl,
    matmul_zero_apply dot_S1x256_S256x256_S1x256_1_1_0_0_n_n _ rfl rfl rfl rfl rfl rfl]
  unfold wdistExpanded
  simp only [mulf_apply, broadcast_apply, hms, hws]
  rfl

/-! ## The stored value -/

/-- A component's probability table from its distance table: `e^(0 − distance)`. -/
def probTab (e : FVec Ideal S512x256 .f32) : FVec Ideal S512x256 .f32 :=
  exp (subf (broadcast S512x256 (Scalar.ofBits .f32 0x00000000#32)) e)

/-- The two probability tables combined entry by entry. -/
def cellTab (p0 p1 : FVec Ideal S512x256 .f32) : FVec Ideal S512x256 .f32 :=
  divf (addf p0 p1)
    (subf (addf (addf p0 p1) (broadcast S512x256 (Scalar.ofBits .f32 0x40000000#32)))
      (mulf (broadcast S512x256 (Scalar.ofBits .f32 0x40000000#32)) (maximumf p0 p1)))

/-- The body's stored value is these tables of its three loaded blocks. -/
theorem stored_eq (xb : Vec Ideal S512x256 .f32) (m r : Vec Ideal S256x2x256 .f32) :
    k0_pay1 xb (k0_pay2 xb) (k0_pay3 (F := Ideal)) (k0_pay4 xb m r) (k0_pay5 m) (k0_pay6 r) (k0_pay7 m r)
      = cellTab (probTab (estTab xb (rows0 m) (wtab (rows0 r)))) (probTab (estTab xb (rows1 m) (wtab (rows1 r)))) := rfl

/-- THE STORED VALUE AT `(p, o)`, on real inputs: the specification's cell of block row `p` at centre `o`. -/
theorem stored_apply (xb : Vec Ideal S512x256 .f32) (m r : Vec Ideal S256x2x256 .f32)
    (hx : ∀ i, ∃ q : ℝ, xb i = (q : EReal)) (hm : ∀ i, ∃ q : ℝ, m i = (q : EReal)) (hr : ∀ i, ∃ q : ℝ, r i = (q : EReal))
    (p : Fin 512) (o : Fin 256) :
    k0_pay1 xb (k0_pay2 xb) (k0_pay3 (F := Ideal)) (k0_pay4 xb m r) (k0_pay5 m) (k0_pay6 r) (k0_pay7 m r) (ix2 p o)
      = cell (fun f => xb (ix2 p f)) m r o := by
  rw [stored_eq]
  show combine
      (Ideal.exp (Ideal.ofBits .f32 0x00000000#32 - estTab xb (rows0 m) (wtab (rows0 r)) (ix2 p o)))
      (Ideal.exp (Ideal.ofBits .f32 0x00000000#32 - estTab xb (rows1 m) (wtab (rows1 r)) (ix2 p o))) = _
  rw [estTab_apply xb _ _ m r 0 (rows0_apply m) (wtab_apply _ r 0 (rows0_apply r)),
    estTab_apply xb _ _ m r 1 (rows1_apply m) (wtab_apply _ r 1 (rows1_apply r)),
    exp_zero_sub_wdistExpanded _ m r (fun f => hx _) hm hr, exp_zero_sub_wdistExpanded _ m r (fun f => hx _) hm hr]
  rfl

end Cert.KernelIdeal.Cell

end
-- ==== Proof.KernelValue.lean ====
/- From blocks to the whole result. Grid point `t` (of two) stages rows `512 t … 512 t + 511` of the points and both
   centre tables whole, and writes back rows `512 t … 512 t + 511` of the result. With the stored value read at an
   index (the specification's cell of the block's row), what point `t` writes back is block `t` of the specification
   of the argument arrays; the two blocks cover the result array; so the array after the run is the specification. -/
import proofs.«125712_j850403524972_1_alg».proof.Proof.Gen.KernelIdeal.Value
import proofs.«125712_j850403524972_1_alg».proof.Proof.KernelCell
import Idealize.ShloMosaic.Lib.Pipeline.Value

set_option maxRecDepth 16384

noncomputable section

namespace Cert.KernelIdeal.Whole

open Cert.KernelIdeal Cert.KernelIdeal.Gen Cert.KernelIdeal.Cell
open Idealize.ShloMosaic Idealize.ShloMosaic.TcCoe Idealize.ShloMosaic.ValueIdx Idealize.SL.Sem Cert.Density
open Idealize.ShloMosaic.Pipeline (Dat)

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- The printed index maps over the two grid points: the points' and the result's blocks move with the point along the
    rows; the centre tables' block is always the one at the origin. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The argument arrays as the region finds them, by their literal types. -/
abbrev xarr (c : Dev nD) : Points := V m c main_arg0
abbrev marr (c : Dev nD) : Centres := V m c main_arg1
abbrev rarr (c : Dev nD) : Centres := V m c main_arg2

/-- The points' block at point `t` holds rows `512 t …` of the points. -/
theorem xblk_apply (c : Dev nD) (t : Fin cfg0.N) (y : S512x256.Idx) (k : S1024x256.Idx)
    (hk0 : (k 0).val = 512 * t.val + (y 0).val) (hk1 : (k 1).val = (y 1).val) :
    (iblk m c 0 t : Vec Ideal S512x256 .f32) y = xarr m c k := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * (y 0).val = (k 0).val; rw [e0, hk0]; omega
  | ⟨1, _⟩ => show win0_0.index t (1 : Fin 2) * 256 + 1 * (y 1).val = (k 1).val; rw [e1, hk1]; omega

/-- The means' block at every point is the whole table. -/
theorem mblk_eq (c : Dev nD) (t : Fin cfg0.N) : (iblk m c 1 t : Vec Ideal S256x2x256 .f32) = marr m c := by
  obtain ⟨-, -, e0, e1, e2, -⟩ := idx_facts t
  funext y
  unfold iblk
  rw [View.read_apply]
  show V m c main_arg1 _ = V m c main_arg1 _
  congr 1
  funext a
  apply Fin.ext
  match a with
  | ⟨0, _⟩ => show win0_1.index t (0 : Fin 3) * 256 + 1 * (y 0).val = (y 0).val; rw [e0]; omega
  | ⟨1, _⟩ => show win0_1.index t (1 : Fin 3) * 2 + 1 * (y 1).val = (y 1).val; rw [e1]; omega
  | ⟨2, _⟩ => show win0_1.index t (2 : Fin 3) * 256 + 1 * (y 2).val = (y 2).val; rw [e2]; omega

/-- So is the variances' block. -/
theorem rblk_eq (c : Dev nD) (t : Fin cfg0.N) : (iblk m c 2 t : Vec Ideal S256x2x256 .f32) = rarr m c := by
  obtain ⟨-, -, -, -, -, e0, e1, e2, -⟩ := idx_facts t
  funext y
  unfold iblk
  rw [View.read_apply]
  show V m c main_arg2 _ = V m c main_arg2 _
  congr 1
  funext a
  apply Fin.ext
  match a with
  | ⟨0, _⟩ => show win0_2.index t (0 : Fin 3) * 256 + 1 * (y 0).val = (y 0).val; rw [e0]; omega
  | ⟨1, _⟩ => show win0_2.index t (1 : Fin 3) * 2 + 1 * (y 1).val = (y 1).val; rw [e1]; omega
  | ⟨2, _⟩ => show win0_2.index t (2 : Fin 3) * 256 + 1 * (y 2).val = (y 2).val; rw [e2]; omega

/-- The arguments hold real numbers, on core `c`. -/
structure Reals (c : Dev nD) : Prop where
  x : ∀ i, ∃ q : ℝ, xarr m c i = (q : EReal)
  mu : ∀ i, ∃ q : ℝ, marr m c i = (q : EReal)
  rho : ∀ i, ∃ q : ℝ, rarr m c i = (q : EReal)

/-- The stored value at `(p, o)` of point `t`'s blocks is the specification at row `512 t + p`, column `o`. -/
theorem stored_at (c : Dev nD) (h : Reals m c) (t : Fin cfg0.N) (p : Fin 512) (o : Fin 256) (k : S1024x256.Idx)
    (hk0 : (k 0).val = 512 * t.val + p.val) (hk1 : (k 1).val = o.val) :
    k0_pay1 (iblk m c 0 t) (k0_pay2 (iblk m c 0 t)) (k0_pay3 (F := Ideal)) (k0_pay4 (iblk m c 0 t) (iblk m c 1 t) (iblk m c 2 t))
        (k0_pay5 (iblk m c 1 t)) (k0_pay6 (iblk m c 2 t)) (k0_pay7 (iblk m c 1 t) (iblk m c 2 t)) (ix2 p o)
      = density (xarr m c) (marr m c) (rarr m c) k := by
  have hx : ∀ i : S512x256.Idx, ∃ q : ℝ, (iblk m c 0 t : Vec Ideal S512x256 .f32) i = (q : EReal) := fun i => by
    unfold iblk
    rw [View.read_apply]
    exact h.x _
  refine (stored_apply (iblk m c 0 t) (iblk m c 1 t) (iblk m c 2 t) hx
    (by rw [mblk_eq]; exact h.mu) (by rw [rblk_eq]; exact h.rho) p o).trans ?_
  rw [mblk_eq, rblk_eq]
  unfold density
  rw [show k 1 = o from Fin.ext hk1]
  congr 1
  funext f
  exact xblk_apply m c t (ix2 p f) (ix2 (k 0) f) hk0 rfl

/-- WHAT POINT `t` WRITES BACK is block `t` of the specification of the argument arrays. -/
theorem flushed_eq (c : Dev nD) (h : Reals m c) (t : Fin cfg0.N) :
    (dats m 0 c).flushed 3 t
      = ((cfg0.win 3).blk t).view.read (Elt Ideal) (density (xarr m c) (marr m c) (rarr m c)) := by
  rw [Cert.KernelIdeal.Value.flushed3]
  unfold out0_3
  rw [View.canon_unit_zero z2]
  simp only [View.ld_unit_zero (S := S512x256) z2, View.ld_unit_zero (S := S256x2x256) z3]
  obtain ⟨-, -, -, -, -, -, -, -, e0, e1⟩ := idx_facts t
  funext j
  obtain ⟨p, o, rfl⟩ : ∃ (p : Fin 512) (o : Fin 256), j = ix2 p o := ⟨j 0, j 1, eq_ix2 j⟩
  show k0_pay1 (iblk m c 0 t) (k0_pay2 (iblk m c 0 t)) (k0_pay3 (F := Ideal)) (k0_pay4 (iblk m c 0 t) (iblk m c 1 t) (iblk m c 2 t))
        (k0_pay5 (iblk m c 1 t)) (k0_pay6 (iblk m c 2 t)) (k0_pay7 (iblk m c 1 t) (iblk m c 2 t)) (ix2 p o)
      = density (xarr m c) (marr m c) (rarr m c) (((cfg0.win 3).blk t).view.emb (ix2 p o))
  refine stored_at m c h t p o _ ?_ ?_
  · show win0_3.index t (0 : Fin 2) * 512 + 1 * p.val = 512 * t.val + p.val
    rw [e0]; omega
  · show win0_3.index t (1 : Fin 2) * 256 + 1 * o.val = o.val
    rw [e1]; omega

/-- An index of the result is in point `t`'s block iff each coordinate is in the block's range on its axis. -/
theorem mem_blk (t : Fin cfg0.N) (i : S1024x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v0).slice (win0_3.rect t)).set ↔ _
  rw [View.set_slice_whole, Rect.mem_set_unit]
  exact Iff.rfl

/-- Every index of the result is in the block of the point its row falls to. -/
theorem cover (i : S1024x256.Idx) : ∃ t : Fin cfg0.N, (cfg0.win 3).flush t = true ∧ i ∈ ((cfg0.win 3).blk t).view.set := by
  have hi0 : (i 0).val < 1024 := (i 0).isLt
  have hi1 : (i 1).val < 256 := (i 1).isLt
  have hN : cfg0.N = 2 := N_0
  let t : Fin cfg0.N := ⟨(i 0).val / 512, by rw [hN]; omega⟩
  have ht : t.val = (i 0).val / 512 := rfl
  obtain ⟨-, -, -, -, -, -, -, -, e0, e1⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 256 ≤ (i 1).val ∧ (i 1).val < win0_3.index t (1 : Fin 2) * 256 + 256
    rw [e1]; omega

/-- THE RESULT ARRAY after the run is the specification of the argument arrays. -/
theorem final (c : Dev nD) (h : Reals m c) :
    (dats m 0 c).arrAt 3 cfg0.N = density (xarr m c) (marr m c) (rarr m c) :=
  (dats m 0 c).arrAt_eq_of_cover 3 (density (xarr m c) (marr m c) (rarr m c)) (fun t _ => flushed_eq m c h t) cover

/-- The kernel's run, read: on real arguments the result array ends at the specification, the arguments unchanged. -/
theorem run (h : ∀ c, Reals m c) : θ_run defs (onTc (τ := τ) (main (F := Ideal))) ⟨m, fun _ => 0, ρ⟩ fun r => ∀ c : Dev nD,
      r.2.mem ((c : Thread nD τ).loc main_v0)
        = density (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => ⟨(hr c).1.trans (final m c (h c)), (hr c).2⟩)
    (Cert.KernelIdeal.Value.run_blocks m ρ)

end Cert.KernelIdeal.Whole

end
-- ==== Proof.lean ====
/- A density estimator: for each of 1024 points and 256 centres, two Gaussian-like components
   `p_d = exp (−∑_f (x_f − μ_{o,d,f})² c_{o,d,f})` with weight `c = 1 / ((2 σ) σ)`, `σ = log (1 + e^ρ)`, combined as
   `s / ((s + 2) − 2 · max (p_0, p_1))`, `s = p_0 + p_1`.
   The kernel expands the square before summing — `∑ x² c − 2 ∑ x (μ c) + ∑ μ (μ c)`, three matrix products against
   the block of points — where the reference sums the squared differences as they are. The two agree because every
   term is a real number: the precondition makes every input finite, the softplus of a real is a positive real, so the
   weight is a real, and on reals the expansion is distributivity and commutativity under a finite sum
   (Proof/Law.lean). The rest is arrangement: the reference's sum and maximum over the two components are `p_0 + p_1`
   and `max p_0 p_1` (Proof/RefValue.lean), the kernel's stored value at an index is the specification's cell of the
   block's row (Proof/KernelCell.lean), and its two row blocks cover the result (Proof/KernelValue.lean).
   The three frames are the generated ones (the reference's is its generated run with the result dropped); the
   idealization rewrote nothing, so `preserves` is `True`. -/
import proofs.«125712_j850403524972_1_alg».proof.Defs
import proofs.«125712_j850403524972_1_alg».proof.Proof.Gen.Kernel
import proofs.«125712_j850403524972_1_alg».proof.Proof.Gen.Kernel.Skeleton
import proofs.«125712_j850403524972_1_alg».proof.Proof.Gen.Kernel.Launch
import proofs.«125712_j850403524972_1_alg».proof.Proof.Gen.Kernel.Points
import proofs.«125712_j850403524972_1_alg».proof.Proof.Gen.Kernel.Frame
import proofs.«125712_j850403524972_1_alg».proof.Proof.Gen.KernelIdeal
import proofs.«125712_j850403524972_1_alg».proof.Proof.Gen.KernelIdeal.Skeleton
import proofs.«125712_j850403524972_1_alg».proof.Proof.Gen.KernelIdeal.Launch
import proofs.«125712_j850403524972_1_alg».proof.Proof.Gen.KernelIdeal.Points
import proofs.«125712_j850403524972_1_alg».proof.Proof.Gen.KernelIdeal.Frame
import proofs.«125712_j850403524972_1_alg».proof.Proof.Gen.ReferenceIdeal
import proofs.«125712_j850403524972_1_alg».proof.Proof.Gen.Pre_finite_inputs
import proofs.«125712_j850403524972_1_alg».proof.Proof.Gen.KernelIdeal.Value
import proofs.«125712_j850403524972_1_alg».proof.Proof.Gen.ReferenceIdeal.Run
import proofs.«125712_j850403524972_1_alg».proof.Proof.Gen.ReferenceIdeal.Read
import proofs.«125712_j850403524972_1_alg».proof.Proof.Finite
import proofs.«125712_j850403524972_1_alg».proof.Proof.RefValue
import proofs.«125712_j850403524972_1_alg».proof.Proof.KernelValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- On finite inputs both programs end at the density of the argument arrays. -/
theorem algebraic : Cert.algebraic_KernelIdeal_ReferenceIdeal := by
  intro m ρ m' ρ' hpre hagree
  have hreal : ∀ c, Cert.KernelIdeal.Whole.Reals m c := fun c => by
    obtain ⟨hx, hm, hr⟩ := Cert.Density.Finite.reals_of_pre _ _ _ (hpre c)
    exact ⟨hx, hm, hr⟩
  refine ⟨_, Cert.KernelIdeal.Whole.run m ρ hreal, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
